-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S1000000x64 : Shape := ⟨2, ![1000000, 64]⟩
abbrev S1000x64 : Shape := ⟨2, ![1000, 64]⟩
abbrev S1000x64x64 : Shape := ⟨3, ![1000, 64, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S1000x64x64 : S_.BroadcastsInDim S1000x64x64 (![] : Fin 0 → Fin S1000x64x64.rank)
  reducesTo_S1000x64x64_S_d0_1_2 : S1000x64x64.ReducesTo [0, 1, 2] S_

variable [Facts]

def fn {F : FTy → Type} [FloatOps F] (main_arg0 : IVec S8192x3 32) (main_arg1 : FVec F S1000000x64 .f32) (main_arg2 : FVec F S1000x64 .f32) (main_arg3 : FVec F S1000x64x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000x64 .f32 := Host.absf main_arg2
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_v9 : FVec F S1000x64x64 .f32 := Host.absf main_arg3
  let main_cst_2 : FVec F S_ .f32 := constant S_ .f32 0x7F800000#32
  let main_v10 : FVec F S1000x64x64 .f32 := broadcastInDim S1000x64x64 ![] bcast_S_S1000x64x64 main_cst_2
  let main_v11 : IVec S1000x64x64 1 := cmpf .olt main_v9 main_v10
  let main_c_3 : IVec S_ 1 := constantI S_ 1 1#1
  let main_v12 : IVec S_ 1 := (fun x v => Host.reduce IntOp.andi x v reducesTo_S1000x64x64_S_d0_1_2 h_S_) main_v11 main_c_3
  let main_v13 : IVec S_ 1 := andi main_v8 main_v12
  main_v13
-- ==== Kernel.lean ====
abbrev S8192x3 : Shape := ⟨2, ![8192, 3]⟩
abbrev S1000000x64 : Shape := ⟨2, ![1000000, 64]⟩
abbrev S1000x64 : Shape := ⟨2, ![1000, 64]⟩
abbrev S1000x64x64 : Shape := ⟨3, ![1000, 64, 64]⟩
abbrev S8192x1 : Shape := ⟨2, ![8192, 1]⟩
abbrev S8192 : Shape := ⟨1, ![8192]⟩
abbrev S_ : Shape := ⟨0, ![]⟩
abbrev S8192x64 : Shape := ⟨2, ![8192, 64]⟩
abbrev S8192x64x64 : Shape := ⟨3, ![8192, 64, 64]⟩
abbrev S8192x4096 : Shape := ⟨2, ![8192, 4096]⟩
abbrev S8192x8192 : Shape := ⟨2, ![8192, 8192]⟩
abbrev S512x4096 : Shape := ⟨2, ![512, 4096]⟩
abbrev S512x64 : Shape := ⟨2, ![512, 64]⟩
abbrev S512x512 : Shape := ⟨2, ![512, 512]⟩
abbrev S512x64x1 : Shape := ⟨3, ![512, 64, 1]⟩
abbrev S512x1x64 : Shape := ⟨3, ![512, 1, 64]⟩
abbrev S512x64x64 : Shape := ⟨3, ![512, 64, 64]⟩

abbrev nBuf : Space → Nat
  | .hbm => 52
  | .vmem => 6
  | .smem => 0
  | _ => 0

abbrev bufTy : (tb : Table) → Fin (tcTables nBuf tb) → BufTy
  | .hbm, ⟨0, _⟩ => ⟨S8192x3, .i32⟩
  | .hbm, ⟨1, _⟩ => ⟨S1000000x64, .f32⟩
  | .hbm, ⟨2, _⟩ => ⟨S1000x64, .f32⟩
  | .hbm, ⟨3, _⟩ => ⟨S1000x64x64, .f32⟩
  | .hbm, ⟨4, _⟩ => ⟨S8192x1, .i32⟩
  | .hbm, ⟨5, _⟩ => ⟨S8192, .i32⟩
  | .hbm, ⟨6, _⟩ => ⟨S8192x1, .i32⟩
  | .hbm, ⟨7, _⟩ => ⟨S8192, .i32⟩
  | .hbm, ⟨8, _⟩ => ⟨S8192x1, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S8192x64, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x64, .f32⟩
  | .hbm, ⟨28, _⟩ => ⟨S8192x64, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S8192x64, .f32⟩
  | .hbm, ⟨38, _⟩ => ⟨S8192x64, .f32⟩
  | .hbm, ⟨39, _⟩ => ⟨S8192x64, .f32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192x1, .i32⟩
  | .hbm, ⟨48, _⟩ => ⟨S8192x64x64, .f32⟩
  | .hbm, ⟨49, _⟩ => ⟨S8192x4096, .f32⟩
  | .hbm, ⟨50, _⟩ => ⟨S8192x4096, .bf16⟩
  | .hbm, ⟨51, _⟩ => ⟨S8192x8192, .f32⟩
  | .local _ .vmem, ⟨0, _⟩ => ⟨S512x4096, .bf16⟩
  | .local _ .vmem, ⟨1, _⟩ => ⟨S512x4096, .bf16⟩
  | .local _ .vmem, ⟨2, _⟩ => ⟨S512x64, .f32⟩
  | .local _ .vmem, ⟨3, _⟩ => ⟨S512x64, .f32⟩
  | .local _ .vmem, ⟨4, _⟩ => ⟨S512x512, .f32⟩
  | .local _ .vmem, ⟨5, _⟩ => ⟨S512x512, .f32⟩
  | _, _ => ⟨S8192x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S8192x3_S8192x1_0_0 : S8192x3.Slices ![0, 0] S8192x1
  shapeCasts_S8192x1_S8192 : S8192x1.ShapeCasts S8192
  slices_S8192x3_S8192x1_0_1 : S8192x3.Slices ![0, 1] S8192x1
  slices_S8192x3_S8192x1_0_2 : S8192x3.Slices ![0, 2] S8192x1
  bcast_S_S8192 : S_.BroadcastsInDim S8192 (![] : Fin 0 → Fin S8192.rank)
  bcast_S8192_S8192x1_0 : S8192.BroadcastsInDim S8192x1 (![0] : Fin 1 → Fin S8192x1.rank)
  shapeCasts_S8192x64x64_S8192x4096 : S8192x64x64.ShapeCasts S8192x4096
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  shapeCasts_S512x64_S512x64x1 : S512x64.ShapeCasts S512x64x1
  shapeCasts_S512x64_S512x1x64 : S512x64.ShapeCasts S512x1x64
  broadcasts_S512x64x1_S512x64x64 : S512x64x1.Broadcasts S512x64x64
  broadcasts_S512x1x64_S512x64x64 : S512x1x64.Broadcasts S512x64x64
  shapeCasts_S512x64x64_S512x4096 : S512x64x64.ShapeCasts S512x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x512_S512x512_0_0 : ∀ a, (![0, 0] : Fin 2 → Nat) a + S512x512.size a ≤ S512x512.size a
  h_S512x512 : 0 < S512x512.numel
  gather_S1000000x64_S8192x1_S8192x64_1_0_n_n_0_1_164_wf : GatherDims.WF S1000000x64 S8192x1 S8192x64 [1] [0] [] [0] [] 1 ![1, 64]
  gather_S1000x64_S8192x1_S8192x64_1_0_n_n_0_1_164_wf : GatherDims.WF S1000x64 S8192x1 S8192x64 [1] [0] [] [0] [] 1 ![1, 64]
  gather_S1000x64x64_S8192x1_S8192x64x64_12_0_n_n_0_1_16464_wf : GatherDims.WF S1000x64x64 S8192x1 S8192x64x64 [1, 2] [0] [] [0] [] 1 ![1, 64, 64]
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S8192x64.size a
  hwx0_1 : ∀ i : grid0.Coords, EltTy.bits .f32 = 32 ∨ (Rect.block (s := S8192x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x8192.size a
  hwx0_2 : ∀ i : grid0.Coords, EltTy.bits .f32 = 32 ∨ (Rect.block (s := S8192x8192) S512x512.size (cc0_transform_2 i) (hinb0_2 i)).WholeWords (EltTy.packing .f32)

variable [Facts₀]

def gather_S1000000x64_S8192x1_S8192x64_1_0_n_n_0_1_164 : GatherDims S1000000x64 S8192x1 S8192x64 where
  offsetDims := [1]
  collapsedSliceDims := [0]
  operandBatchingDims := []
  startIndicesBatchingDims := []
  startIndexMap := [0]
  indexVectorDim := 1
  sliceSizes := ![1, 64]
  wf := gather_S1000000x64_S8192x1_S8192x64_1_0_n_n_0_1_164_wf
def gather_S1000x64_S8192x1_S8192x64_1_0_n_n_0_1_164 : GatherDims S1000x64 S8192x1 S8192x64 where
  offsetDims := [1]
  collapsedSliceDims := [0]
  operandBatchingDims := []
  startIndicesBatchingDims := []
  startIndexMap := [0]
  indexVectorDim := 1
  sliceSizes := ![1, 64]
  wf := gather_S1000x64_S8192x1_S8192x64_1_0_n_n_0_1_164_wf
def gather_S1000x64x64_S8192x1_S8192x64x64_12_0_n_n_0_1_16464 : GatherDims S1000x64x64 S8192x1 S8192x64x64 where
  offsetDims := [1, 2]
  collapsedSliceDims := [0]
  operandBatchingDims := []
  startIndicesBatchingDims := []
  startIndexMap := [0]
  indexVectorDim := 1
  sliceSizes := ![1, 64, 64]
  wf := gather_S1000x64x64_S8192x1_S8192x64x64_12_0_n_n_0_1_16464_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v38) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x3 : Shape := ⟨2, ![8192, 3]⟩
abbrev S1000000x64 : Shape := ⟨2, ![1000000, 64]⟩
abbrev S1000x64 : Shape := ⟨2, ![1000, 64]⟩
abbrev S1000x64x64 : Shape := ⟨3, ![1000, 64, 64]⟩
abbrev S8192x1 : Shape := ⟨2, ![8192, 1]⟩
abbrev S8192 : Shape := ⟨1, ![8192]⟩
abbrev S_ : Shape := ⟨0, ![]⟩
abbrev S8192x64 : Shape := ⟨2, ![8192, 64]⟩
abbrev S8192x64x64 : Shape := ⟨3, ![8192, 64, 64]⟩
abbrev S8192x64x1 : Shape := ⟨3, ![8192, 64, 1]⟩
abbrev S8192x1x64 : Shape := ⟨3, ![8192, 1, 64]⟩
abbrev S8192x4096 : Shape := ⟨2, ![8192, 4096]⟩
abbrev S4096x8192 : Shape := ⟨2, ![4096, 8192]⟩
abbrev S8192x8192 : Shape := ⟨2, ![8192, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x3, .i32⟩
  | .hbm, ⟨1, _⟩ => ⟨S1000000x64, .f32⟩
  | .hbm, ⟨2, _⟩ => ⟨S1000x64, .f32⟩
  | .hbm, ⟨3, _⟩ => ⟨S1000x64x64, .f32⟩
  | .hbm, ⟨4, _⟩ => ⟨S8192x1, .i32⟩
  | .hbm, ⟨5, _⟩ => ⟨S8192, .i32⟩
  | .hbm, ⟨6, _⟩ => ⟨S8192x1, .i32⟩
  | .hbm, ⟨7, _⟩ => ⟨S8192, .i32⟩
  | .hbm, ⟨8, _⟩ => ⟨S8192x1, .i32⟩
  | .hbm, ⟨9, _⟩ => ⟨S8192, .i32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S8192x64, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x64, .f32⟩
  | .hbm, ⟨28, _⟩ => ⟨S8192x64, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S8192x64, .f32⟩
  | .hbm, ⟨38, _⟩ => ⟨S8192x64, .f32⟩
  | .hbm, ⟨39, _⟩ => ⟨S8192x64, .f32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192x1, .i32⟩
  | .hbm, ⟨48, _⟩ => ⟨S8192x64x64, .f32⟩
  | .hbm, ⟨49, _⟩ => ⟨S8192x64x1, .f32⟩
  | .hbm, ⟨50, _⟩ => ⟨S8192x1x64, .f32⟩
  | .hbm, ⟨51, _⟩ => ⟨S8192x64x64, .f32⟩
  | .hbm, ⟨52, _⟩ => ⟨S8192x64x64, .f32⟩
  | .hbm, ⟨53, _⟩ => ⟨S8192x64x64, .f32⟩
  | .hbm, ⟨54, _⟩ => ⟨S8192x4096, .f32⟩
  | .hbm, ⟨55, _⟩ => ⟨S8192x4096, .f32⟩
  | .hbm, ⟨56, _⟩ => ⟨S4096x8192, .f32⟩
  | .hbm, ⟨57, _⟩ => ⟨S8192x8192, .f32⟩
  | _, _ => ⟨S8192x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_c_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]

class Facts₀ : Prop where
  slices_S8192x3_S8192x1_0_0 : S8192x3.Slices ![0, 0] S8192x1
  shapeCasts_S8192x1_S8192 : S8192x1.ShapeCasts S8192
  slices_S8192x3_S8192x1_0_1 : S8192x3.Slices ![0, 1] S8192x1
  slices_S8192x3_S8192x1_0_2 : S8192x3.Slices ![0, 2] S8192x1
  bcast_S_S8192 : S_.BroadcastsInDim S8192 (![] : Fin 0 → Fin S8192.rank)
  bcast_S8192_S8192x1_0 : S8192.BroadcastsInDim S8192x1 (![0] : Fin 1 → Fin S8192x1.rank)
  bcast_S8192x64_S8192x64x1_0_1 : S8192x64.BroadcastsInDim S8192x64x1 (![0, 1] : Fin 2 → Fin S8192x64x1.rank)
  bcast_S8192x64_S8192x1x64_0_2 : S8192x64.BroadcastsInDim S8192x1x64 (![0, 2] : Fin 2 → Fin S8192x1x64.rank)
  bcast_S8192x64x1_S8192x64x64_0_1_2 : S8192x64x1.BroadcastsInDim S8192x64x64 (![0, 1, 2] : Fin 3 → Fin S8192x64x64.rank)
  bcast_S8192x1x64_S8192x64x64_0_1_2 : S8192x1x64.BroadcastsInDim S8192x64x64 (![0, 1, 2] : Fin 3 → Fin S8192x64x64.rank)
  shapeCasts_S8192x64x64_S8192x4096 : S8192x64x64.ShapeCasts S8192x4096
  transposes_S8192x4096_S4096x8192_1_0 : S8192x4096.Transposes [1, 0] S4096x8192
  gather_S1000000x64_S8192x1_S8192x64_1_0_n_n_0_1_164_wf : GatherDims.WF S1000000x64 S8192x1 S8192x64 [1] [0] [] [0] [] 1 ![1, 64]
  gather_S1000x64_S8192x1_S8192x64_1_0_n_n_0_1_164_wf : GatherDims.WF S1000x64 S8192x1 S8192x64 [1] [0] [] [0] [] 1 ![1, 64]
  gather_S1000x64x64_S8192x1_S8192x64x64_12_0_n_n_0_1_16464_wf : GatherDims.WF S1000x64x64 S8192x1 S8192x64x64 [1, 2] [0] [] [0] [] 1 ![1, 64, 64]
  dot_S8192x4096_S4096x8192_S8192x8192_1_0_0_1_n_n_wf : DotDims.WF S8192x4096 S4096x8192 S8192x8192 [1] [0] [0] [1] [] []

variable [Facts₀]

def gather_S1000000x64_S8192x1_S8192x64_1_0_n_n_0_1_164 : GatherDims S1000000x64 S8192x1 S8192x64 where
  offsetDims := [1]
  collapsedSliceDims := [0]
  operandBatchingDims := []
  startIndicesBatchingDims := []
  startIndexMap := [0]
  indexVectorDim := 1
  sliceSizes := ![1, 64]
  wf := gather_S1000000x64_S8192x1_S8192x64_1_0_n_n_0_1_164_wf
def gather_S1000x64_S8192x1_S8192x64_1_0_n_n_0_1_164 : GatherDims S1000x64 S8192x1 S8192x64 where
  offsetDims := [1]
  collapsedSliceDims := [0]
  operandBatchingDims := []
  startIndicesBatchingDims := []
  startIndexMap := [0]
  indexVectorDim := 1
  sliceSizes := ![1, 64]
  wf := gather_S1000x64_S8192x1_S8192x64_1_0_n_n_0_1_164_wf
def gather_S1000x64x64_S8192x1_S8192x64x64_12_0_n_n_0_1_16464 : GatherDims S1000x64x64 S8192x1 S8192x64x64 where
  offsetDims := [1, 2]
  collapsedSliceDims := [0]
  operandBatchingDims := []
  startIndicesBatchingDims := []
  startIndexMap := [0]
  indexVectorDim := 1
  sliceSizes := ![1, 64, 64]
  wf := gather_S1000x64x64_S8192x1_S8192x64x64_12_0_n_n_0_1_16464_wf
def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.QuadForm.lean ====
/-
  The bilinear form this kernel computes, as one function of two arrays.

  `W` has 8192 rows of 4096 entries: row `i` is a 64 × 64 matrix laid out row-major, so position `k = 64 a + b`
  holds the matrix entry `(a, b)`. `e` has 8192 rows of 64 entries: row `j` is a vector. Then

      quad W e (i, j) = Σ_k W[i, k] · (e[j, k / 64] · e[j, k % 64]),

  the quadratic form of the matrix in row `i` at the vector in row `j`, written as ONE sum over the 4096 positions of
  the pairs `(a, b)`. Both programs compute this sum with the factors in this order, so no law of the extended reals is
  needed to join them beyond re-indexing the sum.
-/
import Idealize.ShloMosaic.Lib.ValueIdx

noncomputable section

namespace Cert.QuadForm

open Idealize.ShloMosaic Idealize.ShloMosaic.ValueIdx

/-- The row `a` of position `k = 64 a + b` of a 64 × 64 matrix laid out row-major. -/
abbrev rowOf (k : Fin 4096) : Fin 64 := ⟨k.val / 64, by have := k.isLt; omega⟩

/-- Its column `b`. -/
abbrev colOf (k : Fin 4096) : Fin 64 := ⟨k.val % 64, Nat.mod_lt _ (by decide)⟩

/-- `quad W e (i, j) = Σ_k W[i, k] · (e[j, k / 64] · e[j, k % 64])`. -/
def quad (W : (⟨2, ![8192, 4096]⟩ : Shape).Idx → EReal) (e : (⟨2, ![8192, 64]⟩ : Shape).Idx → EReal) :
    (⟨2, ![8192, 8192]⟩ : Shape).Idx → EReal :=
  fun j => ∑ k : Fin 4096, W (ix2 (j 0) k) * (e (ix2 (j 1) (rowOf k)) * e (ix2 (j 1) (colOf k)))

end Cert.QuadForm

end
-- ==== Proof.BlockProduct.lean ====
/-
  One grid point's block of the kernel's result, entry by entry.

  The body loads a 512 × 4096 block `Wb` of matrix rows and a 512 × 64 block `eb` of vectors, forms for each vector the
  64 × 64 outer product `eb[q, a] · eb[q, b]`, lays it out row-major as a row of 4096 entries, and contracts the two
  blocks over that axis of 4096 into a zero accumulator. Read at entry `(p, q)` of the 512 × 512 result that is

      Σ_k Wb[p, k] · (eb[q, k / 64] · eb[q, k % 64]).

  The changes of float format on the way are the identity on the extended reals.
-/
import proofs.«156755_j7653631721898_1_alg».proof.Proof.Gen.KernelIdeal.Skeleton
import proofs.«156755_j7653631721898_1_alg».proof.Proof.QuadForm
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Cert.KernelIdeal.Facts₀ Cert.QuadForm
open Idealize.ShloMosaic Idealize.ShloMosaic.ValueIdx

/-! ## The contraction's operand indices -/

theorem lhs_axis0 (i : S512x512.Idx) (q : dot_S512x4096_S512x4096_S512x512_1_1_0_0_n_n.contr.Idx) :
    (dot_S512x4096_S512x4096_S512x512_1_1_0_0_n_n.lhsIdx i q 0).val = (i 0).val := by
  unfold DotDims.lhsIdx
  rw [dif_neg (show ¬(0 : Fin S512x4096.rank) ∈ dot_S512x4096_S512x4096_S512x512_1_1_0_0_n_n.lhsBatch by decide), dif_pos (show (0 : Fin S512x4096.rank) ∈ dot_S512x4096_S512x4096_S512x512_1_1_0_0_n_n.lhsNonContracting by decide)]
  rfl
theorem lhs_axis1 (i : S512x512.Idx) (q : dot_S512x4096_S512x4096_S512x512_1_1_0_0_n_n.contr.Idx) :
    (dot_S512x4096_S512x4096_S512x512_1_1_0_0_n_n.lhsIdx i q 1).val = (q ⟨0, by decide⟩).val :=
  dot_S512x4096_S512x4096_S512x512_1_1_0_0_n_n.lhsIdx_val_of_single rfl i q
theorem rhs_axis0 (i : S512x512.Idx) (q : dot_S512x4096_S512x4096_S512x512_1_1_0_0_n_n.contr.Idx) :
    (dot_S512x4096_S512x4096_S512x512_1_1_0_0_n_n.rhsIdx i q 0).val = (i 1).val := by
  unfold DotDims.rhsIdx
  rw [dif_neg (show ¬(0 : Fin S512x4096.rank) ∈ dot_S512x4096_S512x4096_S512x512_1_1_0_0_n_n.rhsBatch by decide), dif_pos (show (0 : Fin S512x4096.rank) ∈ dot_S512x4096_S512x4096_S512x512_1_1_0_0_n_n.rhsNonContracting by decide)]
  rfl
theorem rhs_axis1 (i : S512x512.Idx) (q : dot_S512x4096_S512x4096_S512x512_1_1_0_0_n_n.contr.Idx) :
    (dot_S512x4096_S512x4096_S512x512_1_1_0_0_n_n.rhsIdx i q 1).val = (q ⟨0, by decide⟩).val :=
  dot_S512x4096_S512x4096_S512x512_1_1_0_0_n_n.rhsIdx_val_of_single rfl i q

/-- Two 512 × 4096 blocks contracted over their second axes into a zero accumulator: entry `(p, q)` is the sum over `k` of
    row `p` of the left times row `q` of the right. -/
theorem contract_rows (L R : FVec Ideal S512x4096 .bf16) (p q : Fin 512) :
    matmul dot_S512x4096_S512x4096_S512x512_1_1_0_0_n_n none L R (constant (F := Ideal) S512x512 .f32 0x00000000#32) (ix2 p q)
      = ∑ k : Fin 4096, L (ix2 p k) * R (ix2 q k) := by
  simp only [matmul]
  rw [Ideal.matmul_constant_zero_apply, ← Equiv.sum_comp (contrEquiv1 dot_S512x4096_S512x4096_S512x512_1_1_0_0_n_n 4096 rfl rfl).symm]
  refine Finset.sum_congr rfl fun k _ => ?_
  have hk := contrEquiv1_symm_val dot_S512x4096_S512x4096_S512x512_1_1_0_0_n_n 4096 rfl rfl k
  have el : dot_S512x4096_S512x4096_S512x512_1_1_0_0_n_n.lhsIdx (ix2 p q) ((contrEquiv1 dot_S512x4096_S512x4096_S512x512_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S512x4096_S512x4096_S512x512_1_1_0_0_n_n.rhsIdx (ix2 p q) ((contrEquiv1 dot_S512x4096_S512x4096_S512x512_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-! ## The outer products, laid out as rows -/

/-- A 512 × 64 × 64 array flattened to 512 × 4096: position `k` of row `q` is entry `(k / 64, k % 64)` of matrix `q`. -/
theorem flatten_apply (x : FVec Ideal S512x64x64 .f32) (h : S512x64x64.ShapeCasts S512x4096) (q : Fin 512) (k : Fin 4096) :
    shapeCast S512x4096 x h (ix2 q k) = x (ix3 q (rowOf k) (colOf k)) := by
  refine shapeCast_apply x h (ix2 q k) (ix3 q (rowOf k) (colOf k)) ?_
  rw [Shape.rowMajor_val_three, Shape.rowMajor_val_two]
  have hk := k.isLt
  show (q.val * 64 + k.val / 64) * 64 + k.val % 64 = q.val * 4096 + k.val
  omega

/-- The vectors as columns, repeated along the last axis: entry `(q, a, b)` is `x[q, a]`. -/
theorem column_apply (x : FVec Ideal S512x64 .f32) (h : S512x64.ShapeCasts S512x64x1) (hb : S512x64x1.Broadcasts S512x64x64)
    (q : Fin 512) (a b : Fin 64) :
    broadcastTo S512x64x64 (shapeCast S512x64x1 x h) hb (ix3 q a b) = x (ix2 q a) := by
  refine (broadcastTo_apply (shapeCast S512x64x1 x h) hb (ix3 q a b) (ix3 q a (0 : Fin 1)) (fun d => ?_)).trans ?_
  · match d with
    | ⟨0, _⟩ => show q.val = if (512 : Nat) = 1 then 0 else q.val; rw [if_neg (by decide)]
    | ⟨1, _⟩ => show a.val = if (64 : Nat) = 1 then 0 else a.val; rw [if_neg (by decide)]
    | ⟨2, _⟩ => show 0 = if (1 : Nat) = 1 then 0 else b.val; rw [if_pos rfl]
  · refine shapeCast_apply x h (ix3 q a (0 : Fin 1)) (ix2 q a) ?_
    rw [Shape.rowMajor_val_three, Shape.rowMajor_val_two]
    show q.val * 64 + a.val = (q.val * 64 + a.val) * 1 + 0
    omega

/-- The vectors as rows, repeated along the middle axis: entry `(q, a, b)` is `x[q, b]`. -/
theorem row_apply (x : FVec Ideal S512x64 .f32) (h : S512x64.ShapeCasts S512x1x64) (hb : S512x1x64.Broadcasts S512x64x64)
    (q : Fin 512) (a b : Fin 64) :
    broadcastTo S512x64x64 (shapeCast S512x1x64 x h) hb (ix3 q a b) = x (ix2 q b) := by
  refine (broadcastTo_apply (shapeCast S512x1x64 x h) hb (ix3 q a b) (ix3 q (0 : Fin 1) b) (fun d => ?_)).trans ?_
  · match d with
    | ⟨0, _⟩ => show q.val = if (512 : Nat) = 1 then 0 else q.val; rw [if_neg (by decide)]
    | ⟨1, _⟩ => show 0 = if (1 : Nat) = 1 then 0 else a.val; rw [if_pos rfl]
    | ⟨2, _⟩ => show b.val = if (64 : Nat) = 1 then 0 else b.val; rw [if_neg (by decide)]
  · refine shapeCast_apply x h (ix3 q (0 : Fin 1) b) (ix2 q b) ?_
    rw [Shape.rowMajor_val_three, Shape.rowMajor_val_two]
    show q.val * 64 + b.val = (q.val * 1 + 0) * 64 + b.val
    omega

/-! ## The body's stored value -/

/-- Entry `(p, q)` of what the body stores, from its two loaded blocks. -/
theorem stored_apply (eb : Vec Ideal S512x64 .f32) (Wb : Vec Ideal S512x4096 .bf16) (p q : Fin 512) :
    k0_pay1 (F := Ideal) eb Wb (ix2 p q)
      = ∑ k : Fin 4096, Wb (ix2 p k) * (eb (ix2 q (rowOf k)) * eb (ix2 q (colOf k))) := by
  unfold k0_pay1
  refine (contract_rows _ _ p q).trans ?_
  refine Finset.sum_congr rfl fun k _ => ?_
  rw [shapeCast_self, shapeCast_self, truncf_apply, flatten_apply, mulf_apply, column_apply, row_apply]

/-- A block of the result is the bilinear form of the whole arrays there: if the loaded block of matrix rows holds row `i 0` of
    `W` in its row `y 0`, and the loaded block of vectors holds row `i 1` of `e` in its row `y 1`, the stored entry `y` is
    `quad W e i`. -/
theorem stored_eq_quad (W : (⟨2, ![8192, 4096]⟩ : Shape).Idx → EReal) (e : (⟨2, ![8192, 64]⟩ : Shape).Idx → EReal)
    (Wb : Vec Ideal S512x4096 .bf16) (eb : Vec Ideal S512x64 .f32) (i : (⟨2, ![8192, 8192]⟩ : Shape).Idx) (y : S512x512.Idx)
    (hW : ∀ k : Fin 4096, Wb (ix2 (y 0) k) = W (ix2 (i 0) k))
    (he : ∀ a : Fin 64, eb (ix2 (y 1) a) = e (ix2 (i 1) a)) :
    k0_pay1 (F := Ideal) eb Wb y = quad W e i := by
  refine (congrArg (k0_pay1 (F := Ideal) eb Wb) (eq_ix2 y)).trans ?_
  refine (stored_apply eb Wb (y 0) (y 1)).trans ?_
  unfold quad
  refine Finset.sum_congr rfl fun k _ => ?_
  rw [hW k, he (rowOf k), he (colOf k)]

end Cert.KernelIdeal.BlockProduct

end
-- ==== Proof.KernelArray.lean ====
/-
  The kernel's result array after the run.

  The grid is 16 × 16; point number `t` is `(I, J) = (t / 16, t % 16)`. It loads block `I` of the matrix rows (rows `512 I …
  512 I + 511`, all 4096 positions), block `J` of the vectors (vectors `512 J … 512 J + 511`, all 64 entries), and writes back
  block `(I, J)` of the 8192 × 8192 result. By `BlockProduct.stored_eq_quad` what it writes is the block of ONE whole-array
  function, the bilinear form `quad` of the two arrays the region is launched on; every entry `(i, j)` lies in the block of
  point `16 (i / 512) + j / 512`; so the array ends holding that function.
-/
import proofs.«156755_j7653631721898_1_alg».proof.Proof.Gen.KernelIdeal.Value
import proofs.«156755_j7653631721898_1_alg».proof.Proof.BlockProduct

noncomputable section

namespace Cert.KernelIdeal.KernelArray

open Cert.KernelIdeal Cert.KernelIdeal.Gen Cert.KernelIdeal.Value Cert.QuadForm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's loads and its store are through whole staging buffers: offset zero on both axes. -/
theorem hz : (![0, 0] : Fin 2 → Nat) = fun _ => 0 := funext fun a => by fin_cases a <;> rfl

/-- The flattened relation matrices, as the region finds them. -/
abbrev wgArr (c : Dev nD) : S8192x4096.Idx → EReal := V m c main_v38
/-- The translation errors, as the region finds them. -/
abbrev errArr (c : Dev nD) : S8192x64.Idx → EReal := V m c main_v29

/-- The three index maps, decided over the 256 points: the matrix rows follow the grid's first coordinate, the vectors its
    second, the result both. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = t.val % 16 :=
  (by decide +kernel : ∀ t : Fin grid0.N, _)

/-- What point `t` writes back is block `t` of the bilinear form of the two launched arrays: row `y 0` of its block of matrix rows
    is row `512 I + y 0` of the array, row `y 1` of its block of vectors is vector `512 J + y 1`. -/
theorem flushed_eq (c : Dev nD) (t : Fin cfg0.N) :
    (dats m 0 c).flushed 2 t = ((cfg0.win 2).blk t).view.read (Elt Ideal) (quad (wgArr m c) (errArr m c)) := by
  rw [flushed2]
  unfold out0_2
  rw [View.canon_unit_zero hz]
  simp only [View.ld_unit_zero (S := S512x64) hz, View.ld_unit_zero (S := S512x4096) hz]
  funext y
  obtain ⟨e00, e01, e10, e11, e20, e21⟩ := idx_facts t
  refine BlockProduct.stored_eq_quad (wgArr m c) (errArr m c) (iblk m c 0 t) (iblk m c 1 t) (((cfg0.win 2).blk t).view.emb y) y (fun k => ?_) (fun a => ?_)
  · show V m c main_v38 (((cfg0.win 0).blk t).view.emb (ix2 (y 0) k)) = V m c main_v38 (ix2 ((((cfg0.win 2).blk t).view.emb y) 0) k)
    refine congrArg (V m c main_v38) (funext fun d => Fin.ext ?_)
    match d with
    | ⟨0, _⟩ => show win0_0.index t (0 : Fin 2) * 512 + 1 * (y 0).val = win0_2.index t (0 : Fin 2) * 512 + 1 * (y 0).val; omega
    | ⟨1, _⟩ => show win0_0.index t (1 : Fin 2) * 4096 + 1 * k.val = k.val; omega
  · show V m c main_v29 (((cfg0.win 1).blk t).view.emb (ix2 (y 1) a)) = V m c main_v29 (ix2 ((((cfg0.win 2).blk t).view.emb y) 1) a)
    refine congrArg (V m c main_v29) (funext fun d => Fin.ext ?_)
    match d with
    | ⟨0, _⟩ => show win0_1.index t (0 : Fin 2) * 512 + 1 * (y 1).val = win0_2.index t (1 : Fin 2) * 512 + 1 * (y 1).val; omega
    | ⟨1, _⟩ => show win0_1.index t (1 : Fin 2) * 64 + 1 * a.val = a.val; omega

/-- An index of the result array is in point `t`'s block iff each coordinate is in the block's range on its axis. -/
theorem mem_block (t : Fin cfg0.N) (i : S8192x8192.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v39).slice (win0_2.rect t)).set ↔ _
  rw [View.set_slice_whole, Rect.mem_set_unit]
  exact Iff.rfl

/-- Every entry `(i, j)` of the result is written: by the grid point `(i / 512, j / 512)`, the point number `16 (i / 512) + j / 512`. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  have hlt : (i 0).val / 512 * 16 + (i 1).val / 512 < cfg0.N := by show _ < 256; omega
  obtain ⟨-, -, -, -, e20, e21⟩ := idx_facts ⟨(i 0).val / 512 * 16 + (i 1).val / 512, hlt⟩
  refine ⟨⟨(i 0).val / 512 * 16 + (i 1).val / 512, hlt⟩, flush0_2 _, ?_⟩
  rw [mem_block]
  have e20' : win0_2.index ⟨(i 0).val / 512 * 16 + (i 1).val / 512, hlt⟩ (0 : Fin 2) = ((i 0).val / 512 * 16 + (i 1).val / 512) / 16 := e20
  have e21' : win0_2.index ⟨(i 0).val / 512 * 16 + (i 1).val / 512, hlt⟩ (1 : Fin 2) = ((i 0).val / 512 * 16 + (i 1).val / 512) % 16 := e21
  intro a
  match a with
  | ⟨0, _⟩ =>
    show win0_2.index ⟨(i 0).val / 512 * 16 + (i 1).val / 512, hlt⟩ (0 : Fin 2) * 512 ≤ (i 0).val ∧ (i 0).val < win0_2.index ⟨(i 0).val / 512 * 16 + (i 1).val / 512, hlt⟩ (0 : Fin 2) * 512 + 512
    omega
  | ⟨1, _⟩ =>
    show win0_2.index ⟨(i 0).val / 512 * 16 + (i 1).val / 512, hlt⟩ (1 : Fin 2) * 512 ≤ (i 1).val ∧ (i 1).val < win0_2.index ⟨(i 0).val / 512 * 16 + (i 1).val / 512, hlt⟩ (1 : Fin 2) * 512 + 512
    omega

/-- THE RESULT ARRAY after the run is the bilinear form of the two arrays the region is launched on. -/
theorem final (c : Dev nD) : (dats m 0 c).arrAt 2 cfg0.N = quad (wgArr m c) (errArr m c) :=
  (dats m 0 c).arrAt_eq_of_cover 2 (quad (wgArr m c) (errArr m c)) (fun t _ => flushed_eq m c t) covered

/-- The kernel's run, with its result named. -/
theorem run : θ_run defs (onTc (τ := τ) (main (F := Ideal))) ⟨m, fun _ => 0, ρ⟩ fun r => ∀ c : Dev nD,
      r.2.mem ((c : Thread nD τ).loc main_v39) = quad (wgArr m c) (errArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.KernelArray

end
-- ==== Proof.HostPrefix.lean ====
/-
  The two arrays the kernel's region is launched on, as functions of the arguments.

  Before its region the kernel's program slices the three columns of the triples, wraps negative indices, gathers the head,
  relation and tail embeddings and the relation matrices, forms `|h + r - t|`, and flattens the matrices — the same
  operations, on the same arguments, in the same order, as the reference's first lines. So the array of translation
  errors it launches the region on is the reference's value of that line, and the array of flattened matrices is the
  reference's flattened gather (the kernel rounds it to a narrower float format first, which is the identity on the extended
  reals). Both equations hold by unfolding the two compositions.
-/
import proofs.«156755_j7653631721898_1_alg».proof.Proof.Gen.KernelIdeal.Frame
import proofs.«156755_j7653631721898_1_alg».proof.Proof.Gen.ReferenceIdeal.Read
import Idealize.ShloMosaic.Lib.StableHlo.Run

noncomputable section

namespace Cert.KernelIdeal.HostPrefix

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 2000000 in
/-- The translation errors `|h + r - t|` the region is launched on are the reference's. -/
theorem err_eq (c : Dev nD) :
    (V m c main_v29 : S8192x64.Idx → EReal)
      = Cert.ReferenceIdeal.Read.val_main_v29 (F := Ideal) (m ((c : Thread nD τ).loc main_arg0)) (m ((c : Thread nD τ).loc main_arg1)) (m ((c : Thread nD τ).loc main_arg2)) := by
  dsimp only [Gen.V, Gen.hostOps0]
  after_results_simp
  rfl

set_option maxRecDepth 8192 in
set_option maxHeartbeats 2000000 in
/-- The flattened relation matrices the region is launched on are the reference's. -/
theorem wg_eq (c : Dev nD) :
    (V m c main_v38 : S8192x4096.Idx → EReal)
      = Cert.ReferenceIdeal.Read.val_main_v42 (F := Ideal) (m ((c : Thread nD τ).loc main_arg0)) (m ((c : Thread nD τ).loc main_arg3)) := by
  dsimp only [Gen.V, Gen.hostOps0]
  after_results_simp
  rfl

end Cert.KernelIdeal.HostPrefix

end
-- ==== Proof.RefValue.lean ====
/-
  The reference's result is the bilinear form.

  The reference multiplies the 8192 × 4096 matrix of flattened relation matrices by the transpose of the 8192 × 4096
  matrix of flattened outer products. Entry `(i, j)` is the sum over `k` of `W[i, k]` times the transposed entry `(k, j)`,
  which is position `k` of the flattened outer product of vector `j`: `e[j, k / 64] · e[j, k % 64]`.
-/
import proofs.«156755_j7653631721898_1_alg».proof.Proof.Gen.ReferenceIdeal.Read
import proofs.«156755_j7653631721898_1_alg».proof.Proof.QuadForm

noncomputable section

namespace Cert.ReferenceIdeal.RefValue

open Cert.ReferenceIdeal Cert.ReferenceIdeal.Read Cert.QuadForm
open Idealize.ShloMosaic Idealize.ShloMosaic.ValueIdx

/-- The left operand is read at row `i 0`, position `k`. -/
theorem left_index (i : S8192x8192.Idx) (k : Fin 4096) : lidx_main_v45 i k = ix2 (i 0) k :=
  funext fun a => Fin.ext (by match a with | ⟨0, _⟩ => rfl | ⟨1, _⟩ => rfl)

/-- Through the transpose, the flattening and the two broadcasts, the first factor of the right operand is read at vector
    `i 1`, entry `k / 64`. -/
theorem first_index (i : S8192x8192.Idx) (k : Fin 4096) :
    idx_main_v37 (idx_main_v39 (idx_main_v43 (idx_main_v44 (ridx_main_v45 i k)))) = ix2 (i 1) (rowOf k) :=
  funext fun a => Fin.ext (by
    have hi : (i 1).val < 8192 := (i 1).isLt
    have hk : k.val < 4096 := k.isLt
    match a with
    | ⟨0, _⟩ => show ((i 1).val * 4096 + k.val) / 4096 = (i 1).val; omega
    | ⟨1, _⟩ => show ((i 1).val * 4096 + k.val) / 64 % 64 = k.val / 64; omega)

/-- The second factor is read at vector `i 1`, entry `k % 64`. -/
theorem second_index (i : S8192x8192.Idx) (k : Fin 4096) :
    idx_main_v38 (idx_main_v40 (idx_main_v43 (idx_main_v44 (ridx_main_v45 i k)))) = ix2 (i 1) (colOf k) :=
  funext fun a => Fin.ext (by
    have hi : (i 1).val < 8192 := (i 1).isLt
    have hk : k.val < 4096 := k.isLt
    match a with
    | ⟨0, _⟩ => show ((i 1).val * 4096 + k.val) / 4096 = (i 1).val; omega
    | ⟨1, _⟩ => show ((i 1).val * 4096 + k.val) % 64 = k.val % 64; omega)

/-- The reference's product is the bilinear form of its flattened relation matrices and its vectors. -/
theorem result_eq (x0 : (⟨S8192x3, .i32⟩ : BufTy).Contents (Elt Ideal)) (x1 : (⟨S1000000x64, .f32⟩ : BufTy).Contents (Elt Ideal))
    (x2 : (⟨S1000x64, .f32⟩ : BufTy).Contents (Elt Ideal)) (x3 : (⟨S1000x64x64, .f32⟩ : BufTy).Contents (Elt Ideal)) :
    val_main_v45 (F := Ideal) x0 x1 x2 x3 = quad (val_main_v42 (F := Ideal) x0 x3) (val_main_v29 (F := Ideal) x0 x1 x2) := by
  funext i
  rw [val_main_v45_apply]
  unfold quad
  refine Finset.sum_congr rfl fun k _ => ?_
  rw [val_main_v44_apply, val_main_v43_apply, val_main_v41_apply, val_main_v39_apply, val_main_v40_apply, val_main_v37_apply,
    val_main_v38_apply, left_index, first_index, second_index, Ideal.mulf_def]
  rfl

end Cert.ReferenceIdeal.RefValue

end
-- ==== Proof.lean ====
/-
  A batched quadratic form, tiled: out[i, j] = e_j^T W_{r_i} e_j for 8192 samples.

  From the triples (head, relation, tail) both programs gather, by the same host operations, the translation errors
  `e[j] = |h_j + r_j - t_j|` (8192 vectors of 64 entries) and the relation matrices `W[i]` (8192 matrices of 64 × 64, each laid out
  row-major as a row of 4096 entries). The result is the 8192 × 8192 array

      out[i, j] = Σ_k W[i, k] · (e[j, k / 64] · e[j, k % 64])          (`Cert.QuadForm.quad`).

  The kernel computes it block by block on a 16 × 16 grid: point `(I, J)` loads rows `512 I …` of `W` and vectors `512 J …` of `e`,
  forms the 512 outer products in place, flattens them and contracts the two blocks over the axis of 4096 into a zero
  accumulator; the 256 blocks of 512 × 512 tile the result. The reference forms all 8192 outer products, flattens and
  transposes them, and takes one matrix product. On the extended reals a change of float format is the identity and both
  sums run over the same 4096 terms with the factors in the same order, so the two results are the same function of the
  arguments; finiteness of the inputs is not used.

  Modules: QuadForm (the form), BlockProduct (what one grid point stores, entry by entry), KernelArray (the blocks tile the
  result: the kernel's array after the run), HostPrefix (the arrays the region is launched on are the reference's
  intermediate values of the same arguments), RefValue (the reference's product, entry by entry, is the form).
-/
import proofs.«156755_j7653631721898_1_alg».proof.Defs
import proofs.«156755_j7653631721898_1_alg».proof.Proof.Gen.Kernel
import proofs.«156755_j7653631721898_1_alg».proof.Proof.Gen.Kernel.Skeleton
import proofs.«156755_j7653631721898_1_alg».proof.Proof.Gen.Kernel.Launch
import proofs.«156755_j7653631721898_1_alg».proof.Proof.Gen.Kernel.Points
import proofs.«156755_j7653631721898_1_alg».proof.Proof.Gen.Kernel.Frame
import proofs.«156755_j7653631721898_1_alg».proof.Proof.Gen.KernelIdeal
import proofs.«156755_j7653631721898_1_alg».proof.Proof.Gen.KernelIdeal.Skeleton
import proofs.«156755_j7653631721898_1_alg».proof.Proof.Gen.KernelIdeal.Launch
import proofs.«156755_j7653631721898_1_alg».proof.Proof.Gen.KernelIdeal.Points
import proofs.«156755_j7653631721898_1_alg».proof.Proof.Gen.KernelIdeal.Frame
import proofs.«156755_j7653631721898_1_alg».proof.Proof.Gen.KernelIdeal.Value
import proofs.«156755_j7653631721898_1_alg».proof.Proof.Gen.ReferenceIdeal
import proofs.«156755_j7653631721898_1_alg».proof.Proof.Gen.ReferenceIdeal.Run
import proofs.«156755_j7653631721898_1_alg».proof.Proof.Gen.ReferenceIdeal.Read
import proofs.«156755_j7653631721898_1_alg».proof.Proof.Gen.Pre_finite_inputs
import proofs.«156755_j7653631721898_1_alg».proof.Proof.KernelArray
import proofs.«156755_j7653631721898_1_alg».proof.Proof.HostPrefix
import proofs.«156755_j7653631721898_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: it runs, and its arguments are never written. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the bilinear form of the gathered relation matrices and translation errors: the kernel's
    array block by block (`KernelArray.run`), the reference's product entry by entry (`RefValue.result_eq`); the arrays the
    kernel's region is launched on are the reference's gathered values of arguments that agree (`HostPrefix`). -/
theorem algebraic : Cert.algebraic_KernelIdeal_ReferenceIdeal := by
  intro m ρ m' ρ' _ hagree
  refine ⟨fun c => Cert.QuadForm.quad (Cert.KernelIdeal.KernelArray.wgArr m c) (Cert.KernelIdeal.KernelArray.errArr m c),
    Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.RefValue.result_eq,
    (hagree c).1, (hagree c).2.1, (hagree c).2.2.1, (hagree c).2.2.2]
  exact congrArg₂ Cert.QuadForm.quad (Cert.KernelIdeal.HostPrefix.wg_eq m c).symm (Cert.KernelIdeal.HostPrefix.err_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
